-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x16384x4096 : Shape := ⟨3, ![4, 16384, 4096]⟩
abbrev S16384x4096 : Shape := ⟨2, ![16384, 4096]⟩
abbrev S4096 : Shape := ⟨1, ![4096]⟩
abbrev S_ : Shape := ⟨0, ![]⟩

class Facts : Prop where
  bcast_S_S4x16384x4096 : S_.BroadcastsInDim S4x16384x4096 (![] : Fin 0 → Fin S4x16384x4096.rank)
  reducesTo_S4x16384x4096_S_d0_1_2 : S4x16384x4096.ReducesTo [0, 1, 2] S_
  h_S_ : 0 < S_.numel
  bcast_S_S16384x4096 : S_.BroadcastsInDim S16384x4096 (![] : Fin 0 → Fin S16384x4096.rank)
  reducesTo_S16384x4096_S_d0_1 : S16384x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4x16384x4096 .f32) (main_arg1 : FVec F S16384x4096 .f32) (main_arg2 : FVec F S4096 .f32) : IVec S_ 1 :=
  let main_v0 : FVec F S4x16384x4096 .f32 := Host.absf main_arg0
  let main_cst : FVec F S_ .f32 := constant S_ .f32 0x7F800000#32
  let main_v1 : FVec F S4x16384x4096 .f32 := broadcastInDim S4x16384x4096 ![] bcast_S_S4x16384x4096 main_cst
  let main_v2 : IVec S4x16384x4096 1 := cmpf .olt main_v0 main_v1
  let main_c : IVec S_ 1 := constantI S_ 1 1#1
  let main_v3 : IVec S_ 1 := (fun x v => Host.reduce IntOp.andi x v reducesTo_S4x16384x4096_S_d0_1_2 h_S_) main_v2 main_c
  let main_v4 : FVec F S16384x4096 .f32 := Host.absf main_arg1
  let main_cst_0 : FVec F S_ .f32 := constant S_ .f32 0x7F800000#32
  let main_v5 : FVec F S16384x4096 .f32 := broadcastInDim S16384x4096 ![] bcast_S_S16384x4096 main_cst_0
  let main_v6 : IVec S16384x4096 1 := cmpf .olt main_v4 main_v5
  let main_c_1 : IVec S_ 1 := constantI S_ 1 1#1
  let main_v7 : IVec S_ 1 := (fun x v => Host.reduce IntOp.andi x v reducesTo_S16384x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S4x16384x4096 : Shape := ⟨3, ![4, 16384, 4096]⟩
abbrev S16384x4096 : Shape := ⟨2, ![16384, 4096]⟩
abbrev S4096 : Shape := ⟨1, ![4096]⟩
abbrev S4x128x4096 : Shape := ⟨3, ![4, 128, 4096]⟩
abbrev S128x4096 : Shape := ⟨2, ![128, 4096]⟩
abbrev S128 : Shape := ⟨1, ![128]⟩
abbrev S128x1 : Shape := ⟨2, ![128, 1]⟩
abbrev S1x4096 : Shape := ⟨2, ![1, 4096]⟩

abbrev nBuf : Space → Nat
  | .hbm => 4
  | .vmem => 5
  | .smem => 0
  | _ => 0

abbrev bufTy : (tb : Table) → Fin (tcTables nBuf tb) → BufTy
  | .hbm, ⟨0, _⟩ => ⟨S4x16384x4096, .f32⟩
  | .hbm, ⟨1, _⟩ => ⟨S16384x4096, .f32⟩
  | .hbm, ⟨2, _⟩ => ⟨S4096, .f32⟩
  | .hbm, ⟨3, _⟩ => ⟨S16384x4096, .f32⟩
  | .local _ .vmem, ⟨0, _⟩ => ⟨S4x128x4096, .f32⟩
  | .local _ .vmem, ⟨1, _⟩ => ⟨S4x128x4096, .f32⟩
  | .local _ .vmem, ⟨2, _⟩ => ⟨S4096, .f32⟩
  | .local _ .vmem, ⟨3, _⟩ => ⟨S128x4096, .f32⟩
  | .local _ .vmem, ⟨4, _⟩ => ⟨S128x4096, .f32⟩
  | _, _ => ⟨S4x16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S4x128x4096_S4x128x4096_0_0_0 : ∀ a, (![0, 0, 0] : Fin 3 → Nat) a + S4x128x4096.size a ≤ S4x128x4096.size a
  h_S4x128x4096 : 0 < S4x128x4096.numel
  reduces_S4x128x4096_S128x4096 : S4x128x4096.Reduces [0] S128x4096
  reduces_S128x4096_S128 : S128x4096.Reduces [1] S128
  shapeCasts_S128_S128x1 : S128.ShapeCasts S128x1
  broadcasts_S128x1_S128x4096 : S128x1.Broadcasts S128x4096
  inb_S4096_S4096_0 : ∀ a, (![0] : Fin 1 → Nat) a + S4096.size a ≤ S4096.size a
  h_S4096 : 0 < S4096.numel
  shapeCasts_S4096_S1x4096 : S4096.ShapeCasts S1x4096
  broadcasts_S1x4096_S128x4096 : S1x4096.Broadcasts S128x4096
  inb_S128x4096_S128x4096_0_0 : ∀ a, (![0, 0] : Fin 2 → Nat) a + S128x4096.size a ≤ S128x4096.size a
  h_S128x4096 : 0 < S128x4096.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x128x4096.size a ≤ S4x16384x4096.size a
  hwx0_0 : ∀ i : grid0.Coords, EltTy.bits .f32 = 32 ∨ (Rect.block (s := S4x16384x4096) S4x128x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096.size a ≤ S4096.size a
  hwx0_1 : ∀ i : grid0.Coords, EltTy.bits .f32 = 32 ∨ (Rect.block (s := S4096) S4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x4096.size a ≤ S16384x4096.size a
  hwx0_2 : ∀ i : grid0.Coords, EltTy.bits .f32 = 32 ∨ (Rect.block (s := S16384x4096) S128x4096.size (cc0_transform_2 i) (hinb0_2 i)).WholeWords (EltTy.packing .f32)

variable [Facts₀]

abbrev win0_0 : Pipeline.Window sig grid0 :=
  Pipeline.Window.ofSpec (Memref.whole main_arg0) S4x128x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S128x4096.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x16384x4096 : Shape := ⟨3, ![4, 16384, 4096]⟩
abbrev S16384x4096 : Shape := ⟨2, ![16384, 4096]⟩
abbrev S4096 : Shape := ⟨1, ![4096]⟩
abbrev S_ : Shape := ⟨0, ![]⟩
abbrev S16384 : Shape := ⟨1, ![16384]⟩
abbrev S16384x1 : Shape := ⟨2, ![16384, 1]⟩
abbrev S1x4096 : Shape := ⟨2, ![1, 4096]⟩

abbrev nBuf : Space → Nat
  | .hbm => 21
  | .vmem => 0
  | .smem => 0
  | _ => 0

abbrev bufTy : (tb : Table) → Fin (tcTables nBuf tb) → BufTy
  | .hbm, ⟨0, _⟩ => ⟨S4x16384x4096, .f32⟩
  | .hbm, ⟨1, _⟩ => ⟨S16384x4096, .f32⟩
  | .hbm, ⟨2, _⟩ => ⟨S4096, .f32⟩
  | .hbm, ⟨3, _⟩ => ⟨S_, .f32⟩
  | .hbm, ⟨4, _⟩ => ⟨S16384x4096, .f32⟩
  | .hbm, ⟨5, _⟩ => ⟨S16384x4096, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x4096, .f32⟩
  | .hbm, ⟨17, _⟩ => ⟨S16384x4096, .f32⟩
  | .hbm, ⟨18, _⟩ => ⟨S1x4096, .f32⟩
  | .hbm, ⟨19, _⟩ => ⟨S16384x4096, .f32⟩
  | .hbm, ⟨20, _⟩ => ⟨S16384x4096, .f32⟩
  | _, _ => ⟨S4x16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩

abbrev nD : Nat := 1
abbrev τ : Topo := Topo.v7x

variable {F : FTy → Type} [FloatOps F]

class Facts₀ : Prop where
  reducesTo_S4x16384x4096_S16384x4096_d0 : S4x16384x4096.ReducesTo [0] S16384x4096
  h_S_ : 0 < S_.numel
  reducesTo_S16384x4096_S16384_d1 : S16384x4096.ReducesTo [1] S16384
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S16384x1_S16384x4096_0_1 : S16384x1.BroadcastsInDim S16384x4096 (![0, 1] : Fin 2 → Fin S16384x4096.rank)
  bcast_S4096_S1x4096_1 : S4096.BroadcastsInDim S1x4096 (![1] : Fin 1 → Fin S1x4096.rank)
  bcast_S1x4096_S16384x4096_0_1 : S1x4096.BroadcastsInDim S16384x4096 (![0, 1] : Fin 2 → Fin S16384x4096.rank)

variable [Facts₀]

class Facts : Prop extends Facts₀ where

variable [Facts]
-- ==== Proof.TokenNorm.lean ====
/-
  The mathematics both programs compute, stated once and away from either program.

  The hidden states arrive as four replica slices `hs[k, r, c]` (k < 4 replicas, r a token, c < 4096 a hidden
  coordinate).  For ONE token r only its four rows matter:
    s(c)   = Σ_k hs[k, r, c]                           the all-reduce over the replicas,
    ρ      = rsqrt ((Σ_c s(c)·s(c)) / 4096 + ε)        the reciprocal root of the mean square (ε the f32 word of 1e-6),
    out(c) = s(c) · ρ · w(c)                           the normalised row scaled by the weight.
  Every operation is the extended reals' own (`Ideal.div`, `Ideal.rsqrt`); the two float words (4096 and ε) are kept as
  words, the same on both sides, and never evaluated.  Because a token's output row is a function of that token's four rows
  and of the weight alone, how the tokens are tiled into blocks plays no part: an array of T tokens is normalised row by
  row (`normArr`), for T = 128 (one block) as for T = 16384 (the whole array).
-/
import Idealize.ShloMosaic.PureOps.Ideal
import Idealize.ShloMosaic.Lib.ValueIdx

noncomputable section

open scoped BigOperators

namespace Cert.TokenNorm

open Idealize.ShloMosaic Idealize.ShloMosaic.ValueIdx

/-- The all-reduced value of one token at hidden coordinate `c`: its four replica rows added. -/
def replicaSum (row : Fin 4 → Fin 4096 → EReal) (c : Fin 4096) : EReal := ∑ k : Fin 4, row k c

/-- The reciprocal root of the token's mean square plus ε: `rsqrt ((Σ_c s(c)²) / 4096 + ε)`. -/
def invRms (row : Fin 4 → Fin 4096 → EReal) : EReal :=
  Ideal.rsqrt (Ideal.div (∑ c : Fin 4096, replicaSum row c * replicaSum row c) (Ideal.ofBits .f32 0x45800000#32)
    + Ideal.ofBits .f32 0x358637BD#32)

/-- One token's output row: the all-reduced row, normalised, times the weight. -/
def normRow (row : Fin 4 → Fin 4096 → EReal) (w : Fin 4096 → EReal) (c : Fin 4096) : EReal :=
  replicaSum row c * invRms row * w c

/-- Token `r`'s four replica rows, read out of an array of `T` tokens. -/
def tokenRows {T : Nat} (hs : (⟨3, ![4, T, 4096]⟩ : Shape).Idx → EReal) (r : Fin T) : Fin 4 → Fin 4096 → EReal :=
  fun k c => hs (ix3 k r c)

/-- The weight vector by its coordinate. -/
def weightAt (w : (⟨1, ![4096]⟩ : Shape).Idx → EReal) : Fin 4096 → EReal := fun c => w (ix1 c)

/-- An array of `T` tokens normalised row by row. -/
def normArr {T : Nat} (hs : (⟨3, ![4, T, 4096]⟩ : Shape).Idx → EReal) (w : (⟨1, ![4096]⟩ : Shape).Idx → EReal) :
    (⟨2, ![T, 4096]⟩ : Shape).Idx → EReal :=
  fun i => normRow (tokenRows hs (i 0)) (weightAt w) (i 1)

/-- Rows that agree give the same output row: the statement that lets a block of tokens stand for those tokens of the
    whole array. -/
theorem normRow_congr {row row' : Fin 4 → Fin 4096 → EReal} {w w' : Fin 4096 → EReal} {c c' : Fin 4096}
    (hrow : row = row') (hw : w = w') (hc : c = c') : normRow row w c = normRow row' w' c' := by
  subst hrow hw hc; rfl

end Cert.TokenNorm

end
-- ==== Proof.KernelRows.lean ====
/-
  The kernel, read row by row, and its blocks laid into the result array.

  One grid point t holds tokens 128·t … 128·t + 127: its input block is those tokens' rows of all four replica slices, its
  second operand the whole weight, and its output block those tokens' rows of the result.  The body adds the four replica
  slices of the block, sums each token's squares along the hidden axis, divides by 4096, adds ε, takes the reciprocal root,
  and multiplies the all-reduced row by it and by the weight.  Read at (p, q) of the block that is `TokenNorm.normRow` of
  the block's token p at q: the block leaves `normArr` of its 128 tokens (`block_eq`, `out_eq`).
  A token's output row depends on that token's rows alone, and block t's token p IS token 128·t + p of the array
  (`flushed_eq`); the 128 blocks cover the 16384 tokens (`cover`), so the result array ends holding `normArr` of the
  whole hidden-states array and the weight (`final`, `run`).
-/
import proofs.«176647_j12592844112268_1_alg».proof.Proof.Gen.KernelIdeal.Value
import proofs.«176647_j12592844112268_1_alg».proof.Proof.TokenNorm
import Idealize.ShloMosaic.Lib.ValueIdx
import Idealize.ShloMosaic.Lib.Pipeline.Value
import Idealize.ShloMosaic.PureOps.Ideal.Laws

noncomputable section

open scoped BigOperators

namespace Cert.KernelIdeal.Rows

open Cert.KernelIdeal Cert.KernelIdeal.Gen Cert.KernelIdeal.Value
open Idealize.ShloMosaic Idealize.ShloMosaic.TcCoe Idealize.ShloMosaic.ValueIdx Idealize.SL.Sem Cert.TokenNorm
open Idealize.ShloMosaic.Pipeline (Dat)

/-! ## The body's two reductions at an index -/

/-- The block's four replica slices added (the reduction over the replica axis). -/
abbrev replicaRed (x0 : Vec Ideal S4x128x4096 .f32) : FVec Ideal S128x4096 .f32 :=
  multiReduction .add [0] S128x4096 x0 0x00000000#32 reduces_S4x128x4096_S128x4096 (.inl rfl) rfl

/-- Each token's squares summed along the hidden axis. -/
abbrev sumSqRed (x0 : Vec Ideal S4x128x4096 .f32) : FVec Ideal S128 .f32 :=
  multiReduction .add [1] S128 (mulf (replicaRed x0) (replicaRed x0)) 0x00000000#32 reduces_S128x4096_S128 (.inl rfl) rfl

/-- At (p, q) the replica reduction is token p's replica sum at q. -/
theorem replicaRed_apply (x0 : Vec Ideal S4x128x4096 .f32) (p : Fin 128) (q : Fin 4096) :
    replicaRed x0 (ix2 p q) = replicaSum (tokenRows (T := 128) x0 p) q := by
  refine (Ideal.multiReduction_add_single (φ := .f32) x0 0x00000000#32 reduces_S4x128x4096_S128x4096 (.inl rfl) rfl (ix2 p q)).trans ?_
  unfold replicaSum tokenRows
  exact Finset.sum_congr rfl fun k _ => congrArg x0 (funext fun a => Fin.ext (by
    match a with | ⟨0, _⟩ => rfl | ⟨1, _⟩ => rfl | ⟨2, _⟩ => rfl))

/-- At p the row reduction is the sum of token p's squared replica sums. -/
theorem sumSqRed_apply (x0 : Vec Ideal S4x128x4096 .f32) (p : Fin 128) :
    sumSqRed x0 (ix1 p)
      = ∑ c : Fin 4096, replicaSum (tokenRows (T := 128) x0 p) c * replicaSum (tokenRows (T := 128) x0 p) c := by
  refine (Ideal.multiReduction_add_single (φ := .f32) (mulf (replicaRed x0) (replicaRed x0)) 0x00000000#32
    reduces_S128x4096_S128 (.inl rfl) rfl (ix1 p)).trans ?_
  show ∑ c : Fin 4096, (mulf (replicaRed x0) (replicaRed x0)) (reduces_S128x4096_S128.lift (ix1 p) c) = _
  refine Finset.sum_congr rfl fun c _ => ?_
  have e : reduces_S128x4096_S128.lift (ix1 p) c = ix2 p c := funext fun a => Fin.ext (by
    match a with | ⟨0, _⟩ => rfl | ⟨1, _⟩ => rfl)
  rw [e]
  show replicaRed x0 (ix2 p c) * replicaRed x0 (ix2 p c) = _
  rw [replicaRed_apply]

/-! ## What one point leaves in its output block -/

/-- The block index by index: token p's normalised row at q. -/
theorem block_eq (x0 : Vec Ideal S4x128x4096 .f32) (x1 : Vec Ideal S4096 .f32) (y : S128x4096.Idx) :
    E2 x0 x1 y = normArr (T := 128) x0 x1 y := by
  obtain ⟨p, q, rfl⟩ : ∃ (p : Fin 128) (q : Fin 4096), y = ix2 p q := ⟨y 0, y 1, eq_ix2 y⟩
  have e0 : ix2_0 (ix2 p q) = ix2 p q := funext fun a => Fin.ext (by match a with | ⟨0, _⟩ => rfl | ⟨1, _⟩ => rfl)
  have e1 : ix2_1 (ix2 p q) = ix1 p := funext fun a => Fin.ext (by match a with | ⟨0, _⟩ => rfl)
  have e2 : ix2_2 (ix2 p q) = ix1 q := funext fun a => Fin.ext (by match a with | ⟨0, _⟩ => rfl)
  show FloatOps.mulf (FloatOps.mulf (replicaRed x0 (ix2_0 (ix2 p q)))
      (FloatOps.rsqrt (FloatOps.addf (FloatOps.divf (sumSqRed x0 (ix2_1 (ix2 p q))) (Scalar.ofBits .f32 0x45800000#32))
        (Scalar.ofBits .f32 0x358637BD#32)))) (x1 (ix2_2 (ix2 p q))) = _
  rw [e0, e1, e2, replicaRed_apply, sumSqRed_apply]
  rfl

theorem hz3 : (![0, 0, 0] : Fin 3 → Nat) = fun _ => 0 := funext fun a => by fin_cases a <;> rfl
theorem hz1 : (![0] : Fin 1 → Nat) = fun _ => 0 := funext fun a => by fin_cases a <;> rfl

/-- The output block after the body, as a function of the two input blocks: the 128 tokens normalised. -/
theorem out_eq (x0 : Vec Ideal S4x128x4096 .f32) (x1 : Vec Ideal S4096 .f32) :
    out0_2 x0 x1 = normArr (T := 128) x0 x1 := by
  funext y
  unfold out0_2
  refine (canon2_eq _ _ y).trans ?_
  simp only [View.ld_unit_zero (S := S4x128x4096) hz3, View.ld_unit_zero (S := S4096) hz1]
  exact block_eq x0 x1 y

/-! ## From blocks to the array -/

variable (m : (ℓ : Loc nD τ sig) → Buf (Elt Ideal) ℓ) (ρ : Dev nD → PrngReg)

/-- The printed index maps over the grid: point t's input block sits at token block t of every replica slice, the
    weight's at its one block, the output's at token block t. -/
theorem idx_facts : ∀ t : Fin cfg0.N, win0_0.index t (0 : Fin 3) = 0 ∧ win0_0.index t (1 : Fin 3) = t.val
    ∧ win0_0.index t (2 : Fin 3) = 0 ∧ win0_1.index t (0 : Fin 1) = 0
    ∧ win0_2.index t (0 : Fin 2) = t.val ∧ win0_2.index t (1 : Fin 2) = 0 :=
  (by decide +kernel : ∀ t : Fin grid0.N, _)

/-- What point t writes back is block t of the whole array normalised row by row. -/
theorem flushed_eq (c : Dev nD) (t : Fin cfg0.N) :
    (dats m 0 c).flushed 2 t
      = ((cfg0.win 2).blk t).view.read (Elt Ideal) (normArr (T := 16384) (V m c main_arg0) (V m c main_arg2)) := by
  rw [flushed2, out_eq (iblk m c 0 t) (iblk m c 1 t)]
  obtain ⟨e00, e01, e02, e10, e20, e21⟩ := idx_facts t
  funext j
  have hj0 : (j 0).val < 128 := (j 0).isLt
  have hj1 : (j 1).val < 4096 := (j 1).isLt
  show normRow (tokenRows (T := 128) (iblk m c 0 t) (j 0)) (weightAt (iblk m c 1 t)) (j 1)
    = normRow (tokenRows (T := 16384) (V m c main_arg0) ((((cfg0.win 2).blk t).view.emb j) 0)) (weightAt (V m c main_arg2))
        ((((cfg0.win 2).blk t).view.emb j) 1)
  refine normRow_congr ?_ ?_ ?_
  · funext k q
    show V m c main_arg0 (((cfg0.win 0).blk t).view.emb (ix3 k (j 0) q)) = V m c main_arg0 (ix3 k ((((cfg0.win 2).blk t).view.emb j) 0) q)
    refine congrArg (V m c main_arg0) (funext fun a => Fin.ext ?_)
    match a with
    | ⟨0, _⟩ => show win0_0.index t (0 : Fin 3) * 4 + 1 * k.val = k.val; omega
    | ⟨1, _⟩ => show win0_0.index t (1 : Fin 3) * 128 + 1 * (j 0).val = win0_2.index t (0 : Fin 2) * 128 + 1 * (j 0).val; omega
    | ⟨2, _⟩ => show win0_0.index t (2 : Fin 3) * 4096 + 1 * q.val = q.val; omega
  · funext q
    show V m c main_arg2 (((cfg0.win 1).blk t).view.emb (ix1 q)) = V m c main_arg2 (ix1 q)
    refine congrArg (V m c main_arg2) (funext fun a => Fin.ext ?_)
    match a with
    | ⟨0, _⟩ => show win0_1.index t (0 : Fin 1) * 4096 + 1 * q.val = q.val; omega
  · apply Fin.ext
    show (j 1).val = win0_2.index t (1 : Fin 2) * 4096 + 1 * (j 1).val
    omega

/-- An index of the result array is in point t's block iff each coordinate is in the block's range on its axis. -/
theorem mem_blk (t : Fin cfg0.N) (i : S16384x4096.Idx) :
    i ∈ ((cfg0.win 2).blk t).view.set ↔ ∀ a : Fin 2, win0_2.index t a * S128x4096.size a ≤ (i a).val
      ∧ (i a).val < win0_2.index t a * S128x4096.size a + S128x4096.size a := by
  show i ∈ ((View.whole main_v0).slice (win0_2.rect t)).set ↔ _
  rw [View.set_slice_whole, Rect.mem_set_unit]
  exact Iff.rfl

/-- Every token belongs to a block: token r to block r / 128. -/
theorem cover (i : S16384x4096.Idx) :
    ∃ t : Fin cfg0.N, (cfg0.win 2).flush t = true ∧ i ∈ ((cfg0.win 2).blk t).view.set := by
  have hi0 : (i 0).val < 16384 := (i 0).isLt
  have hi1 : (i 1).val < 4096 := (i 1).isLt
  have hN : cfg0.N = 128 := N_0
  have ht : (i 0).val / 128 < cfg0.N := by rw [hN]; omega
  obtain ⟨-, -, -, -, e20, e21⟩ := idx_facts ⟨(i 0).val / 128, ht⟩
  have e20' : win0_2.index ⟨(i 0).val / 128, ht⟩ (0 : Fin 2) = (i 0).val / 128 := e20
  refine ⟨⟨(i 0).val / 128, ht⟩, flush0_2 _, ?_⟩
  rw [mem_blk]
  intro a
  match a with
  | ⟨0, _⟩ =>
    show win0_2.index ⟨(i 0).val / 128, ht⟩ (0 : Fin 2) * 128 ≤ (i 0).val
      ∧ (i 0).val < win0_2.index ⟨(i 0).val / 128, ht⟩ (0 : Fin 2) * 128 + 128
    omega
  | ⟨1, _⟩ =>
    show win0_2.index ⟨(i 0).val / 128, ht⟩ (1 : Fin 2) * 4096 ≤ (i 1).val
      ∧ (i 1).val < win0_2.index ⟨(i 0).val / 128, ht⟩ (1 : Fin 2) * 4096 + 4096
    omega

/-- The result array after the run: the hidden states normalised row by row. -/
theorem final (c : Dev nD) :
    (dats m 0 c).arrAt 2 cfg0.N = normArr (T := 16384) (V m c main_arg0) (V m c main_arg2) :=
  (dats m 0 c).arrAt_eq_of_cover 2 (normArr (T := 16384) (V m c main_arg0) (V m c main_arg2))
    (fun t _ => flushed_eq m c t) cover

/-- The kernel's run, read: the result at `normArr` of the launch contents, the arguments unchanged. -/
theorem run : θ_run defs (onTc (τ := τ) (main (F := Ideal))) ⟨m, fun _ => 0, ρ⟩ fun r => ∀ c : Dev nD,
      r.2.mem ((c : Thread nD τ).loc main_v0)
        = normArr (T := 16384) (m ((c : Thread nD τ).loc main_arg0)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

end Cert.KernelIdeal.Rows

end
-- ==== Proof.ReferenceRows.lean ====
/-
  The reference, read row by row.

  The host program sums the four replica slices over the replica axis, squares, sums each token's row over the hidden axis,
  divides by 4096, adds ε, takes the reciprocal root, broadcasts it back along the row, and multiplies by the all-reduced
  row and then by the weight broadcast down the tokens.  Read at the index (r, c) each stage is a stage of `TokenNorm` on
  token r's four rows: the replica sum is `replicaSum`, the column of reciprocal roots is `invRms`, and the product is
  `normRow` at c.  Both zero words the sums start from are the extended real 0.
-/
import proofs.«176647_j12592844112268_1_alg».proof.Proof.Gen.ReferenceIdeal.Read
import proofs.«176647_j12592844112268_1_alg».proof.Proof.TokenNorm
import Idealize.ShloMosaic.Lib.ValueIdx
import Idealize.ShloMosaic.PureOps.Ideal.Laws

noncomputable section

open scoped BigOperators

namespace Cert.ReferenceIdeal.Rows

open Cert.ReferenceIdeal Cert.ReferenceIdeal.Gen Cert.ReferenceIdeal.Read
open Idealize.ShloMosaic Idealize.ShloMosaic.ValueIdx Cert.TokenNorm

/-- The host's sum over the replica axis at (r, c) is token r's replica sum at c. -/
theorem allReduce_apply (x0 : (⟨S4x16384x4096, .f32⟩ : BufTy).Contents (Elt Ideal)) (r : Fin 16384) (c : Fin 4096) :
    val_main_v0 (F := Ideal) x0 (ix2 r c) = replicaSum (tokenRows x0 r) c := by
  rw [val_main_v0_apply, val_main_cst_apply]
  show Ideal.ofBits .f32 0x00000000#32 + _ = _
  rw [Ideal.ofBits_zero_f32, zero_add]
  unfold replicaSum tokenRows
  exact Finset.sum_congr rfl fun k _ => congrArg x0 (funext fun a => Fin.ext (by
    match a with | ⟨0, _⟩ => rfl | ⟨1, _⟩ => rfl | ⟨2, _⟩ => rfl))

/-- The host's sum of squares along token r's row. -/
theorem sumSq_apply (x0 : (⟨S4x16384x4096, .f32⟩ : BufTy).Contents (Elt Ideal)) (r : Fin 16384) :
    val_main_v2 (F := Ideal) x0 (ix1 r)
      = ∑ c : Fin 4096, replicaSum (tokenRows x0 r) c * replicaSum (tokenRows x0 r) c := by
  rw [val_main_v2_apply, val_main_cst_0_apply]
  show Ideal.ofBits .f32 0x00000000#32 + _ = _
  rw [Ideal.ofBits_zero_f32, zero_add]
  refine Finset.sum_congr rfl fun c _ => ?_
  have e : idx_main_v2 (ix1 r) c = ix2 r c := funext fun a => Fin.ext (by
    match a with | ⟨0, _⟩ => rfl | ⟨1, _⟩ => rfl)
  rw [e, val_main_v1_apply, allReduce_apply]
  rfl

/-- The host's column of reciprocal roots, one per token, at (r, 0) is token r's `invRms`. -/
theorem invRms_apply (x0 : (⟨S4x16384x4096, .f32⟩ : BufTy).Contents (Elt Ideal)) (r : Fin 16384) (z : Fin 1) :
    val_main_v8 (F := Ideal) x0 (ix2 r z) = invRms (tokenRows x0 r) := by
  have e : idx_main_v3 (ix2 r z) = ix1 r := funext fun a => Fin.ext (by match a with | ⟨0, _⟩ => rfl)
  rw [val_main_v8_apply, val_main_v7_apply, val_main_v5_apply, val_main_v3_apply, val_main_v4_apply, val_main_v6_apply,
    val_main_cst_1_apply, val_main_cst_2_apply, e, sumSq_apply]
  rfl

/-- The reference's result is the hidden states normalised row by row. -/
theorem reference_eq (x0 : (⟨S4x16384x4096, .f32⟩ : BufTy).Contents (Elt Ideal))
    (x2 : (⟨S4096, .f32⟩ : BufTy).Contents (Elt Ideal)) :
    val_main_v13 (F := Ideal) x0 x2 = normArr x0 x2 := by
  funext i
  obtain ⟨r, c, rfl⟩ : ∃ (r : Fin 16384) (c : Fin 4096), i = ix2 r c := ⟨i 0, i 1, eq_ix2 i⟩
  have e9 : idx_main_v9 (ix2 r c) = ix2 r (0 : Fin 1) := funext fun a => Fin.ext (by
    match a with | ⟨0, _⟩ => rfl | ⟨1, _⟩ => rfl)
  have e11 : idx_main_v11 (idx_main_v12 (ix2 r c)) = ix1 c := funext fun a => Fin.ext (by
    match a with | ⟨0, _⟩ => rfl)
  rw [val_main_v13_apply, val_main_v10_apply, val_main_v9_apply, val_main_v12_apply, val_main_v11_apply, allReduce_apply,
    e9, e11, invRms_apply]
  rfl

end Cert.ReferenceIdeal.Rows

end
-- ==== Proof.lean ====
/-
  Fused all-reduce and RMSNorm with a weight scale, against its reference.

  The kernel streams the hidden states `hs[k, r, c]` (four replica slices of 16384 tokens by 4096 hidden coordinates) in blocks
  of 128 tokens; for each token it adds the four replica rows, s(c) = Σ_k hs[k, r, c], forms the reciprocal root of the mean
  square, ρ = rsqrt ((Σ_c s(c)²) / 4096 + ε), and writes s(c) · ρ · w(c).  The reference computes the same three stages on the
  whole arrays with host reductions and broadcasts.  Over the extended reals the two are the same function term for term:
  the same two sums (a sum does not depend on how the tokens are tiled, and each token's row depends on that token alone),
  the same divisor word 4096 and the same ε word under the same division, addition, reciprocal root and products.  No
  algebraic law is needed beyond that identification, so the finiteness of the inputs is never used, and the unused second
  argument (`residual`) is only carried through unchanged.

  The three frames are the generated ones (the reference's is its run with the result dropped); the idealisation rewrote
  nothing, so `preserves` is trivial; `algebraic` sets the kernel's run (Proof/KernelRows.lean) beside the reference's
  run read stage by stage (Proof/ReferenceRows.lean), both at `TokenNorm.normArr` of arguments that agree.
-/
import proofs.«176647_j12592844112268_1_alg».proof.Defs
import proofs.«176647_j12592844112268_1_alg».proof.Proof.Gen.Kernel
import proofs.«176647_j12592844112268_1_alg».proof.Proof.Gen.Kernel.Skeleton
import proofs.«176647_j12592844112268_1_alg».proof.Proof.Gen.Kernel.Launch
import proofs.«176647_j12592844112268_1_alg».proof.Proof.Gen.Kernel.Points
import proofs.«176647_j12592844112268_1_alg».proof.Proof.Gen.Kernel.Frame
import proofs.«176647_j12592844112268_1_alg».proof.Proof.Gen.KernelIdeal
import proofs.«176647_j12592844112268_1_alg».proof.Proof.Gen.KernelIdeal.Skeleton
import proofs.«176647_j12592844112268_1_alg».proof.Proof.Gen.KernelIdeal.Launch
import proofs.«176647_j12592844112268_1_alg».proof.Proof.Gen.KernelIdeal.Points
import proofs.«176647_j12592844112268_1_alg».proof.Proof.Gen.KernelIdeal.Frame
import proofs.«176647_j12592844112268_1_alg».proof.Proof.Gen.ReferenceIdeal
import proofs.«176647_j12592844112268_1_alg».proof.Proof.Gen.Pre_finite_inputs
import proofs.«176647_j12592844112268_1_alg».proof.Proof.Gen.KernelIdeal.Value
import proofs.«176647_j12592844112268_1_alg».proof.Proof.Gen.ReferenceIdeal.Run
import proofs.«176647_j12592844112268_1_alg».proof.Proof.Gen.ReferenceIdeal.Read
import Idealize.ShloMosaic.Adequacy
import Idealize.ShloMosaic.Init

import proofs.«176647_j12592844112268_1_alg».proof.Proof.TokenNorm
import proofs.«176647_j12592844112268_1_alg».proof.Proof.KernelRows
import proofs.«176647_j12592844112268_1_alg».proof.Proof.ReferenceRows

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation: there is nothing to preserve. -/
theorem preserves : Cert.preserves_Kernel_KernelIdeal := trivial

/-- Both programs end with the hidden states normalised row by row: the kernel block by block, the reference stage by
    stage, of arguments that agree. -/
theorem algebraic : Cert.algebraic_KernelIdeal_ReferenceIdeal := by
  intro m ρ m' ρ' _ hagree
  refine ⟨_, Cert.KernelIdeal.Rows.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v13_eq, Cert.ReferenceIdeal.Rows.reference_eq, (hagree c).1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
